-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩
abbrev S2000 : Shape := ⟨1, ![2000]⟩
abbrev S1600000x128 : Shape := ⟨2, ![1600000, 128]⟩

abbrev nBuf : Space → Nat
  | .hbm => 45
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S2000x128_S2000x128 : S2000x128.ShapeCasts S2000x128
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1600000x1 : Shape := ⟨2, ![1600000, 1]⟩
abbrev S1600000x128 : Shape := ⟨2, ![1600000, 128]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S_, .i32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000x1, .f32⟩
  | .hbm, ⟨29, _⟩ => ⟨S100000x1, .f32⟩
  | .hbm, ⟨30, _⟩ => ⟨S100000x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_cst_3 : Ref sig .tc := ⟨.hbm, 31, rfl⟩
abbrev main_call0_call0_v13 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_2 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_5 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_6 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_7 : Ref sig .tc := ⟨.hbm, 74, rfl⟩
abbrev main_v35 : Ref sig .tc := ⟨.hbm, 75, rfl⟩
abbrev main_v36 : Ref sig .tc := ⟨.hbm, 76, rfl⟩
abbrev main_c_8 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_9 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call1_cst : Ref sig .tc := ⟨.hbm, 92, rfl⟩
abbrev main_call1_v0 : Ref sig .tc := ⟨.hbm, 93, rfl⟩
abbrev main_v50 : Ref sig .tc := ⟨.hbm, 94, rfl⟩
abbrev main_v51 : Ref sig .tc := ⟨.hbm, 95, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The mathematics both programs compute, over the extended reals, entry by entry.

  A row `x` of 128 features is normalised as a layer norm with the unbiased variance:
    mean  μ = (Σ_k x_k) / 128,   variance  σ² = (Σ_k (x_k - μ)²) / 127,
    n_k = (a_k · (x_k - μ)) / (√σ² + ε) + b_k,
  scaled by the row's out-degree factor `s`, and multiplied by the weight matrix:
    p_j = Σ_k (n_k · s) · w_{k j}.
  After the rows are gathered along the edges and summed into their destination rows (operations both programs
  apply in the same form, kept closed here), an entry `g` of the aggregate becomes
    max (g · t + c, 0) + x
  with `t` the row's in-degree factor, `c` the bias entry and `x` the input entry.
  The constants are the patterns the programs print: 128, 127, ε and 0 are never evaluated here.
-/
import Idealize.ShloMosaic.PureOps.Ideal.Laws
import Idealize.ShloMosaic.Lib.ValueIdx

noncomputable section

namespace Cert.GraphConvSpec

open Idealize.ShloMosaic Idealize.ShloMosaic.ValueIdx

/-- The mean of a row of 128 entries. -/
def rowMean (x : Fin 128 → EReal) : EReal :=
  Ideal.div (∑ k : Fin 128, x k) (Ideal.ofBits .f32 0x43000000#32)

/-- The unbiased variance of a row: the squared deviations summed, over 127. -/
def rowVar (x : Fin 128 → EReal) : EReal :=
  Ideal.div (∑ k : Fin 128, (x k - rowMean x) * (x k - rowMean x)) (Ideal.ofBits .f32 0x42FE0000#32)

/-- Entry `k` of the normalised row, scaled by `s`. -/
def normed (x a b : Fin 128 → EReal) (s : EReal) (k : Fin 128) : EReal :=
  (Ideal.div (a k * (x k - rowMean x)) (Ideal.sqrt (rowVar x) + Ideal.ofBits .f32 0x358637BD#32) + b k) * s

/-- Entry `j` of the normalised, scaled row times the weight matrix. -/
def projected (x a b : Fin 128 → EReal) (s : EReal) (w : Fin 128 → Fin 128 → EReal) (j : Fin 128) : EReal :=
  ∑ k : Fin 128, normed x a b s k * w k j

/-- The last stage on one entry: scale, bias, clamp below at zero, add the input entry. -/
def combined (g t c x : EReal) : EReal :=
  max (g * t + c) (Ideal.ofBits .f32 0x00000000#32) + x

/-- The projected features as one array: row `i 0` of the input, the degree factor of that row (a column),
    the two norm vectors and the weight matrix. -/
def projArr (feat : (⟨2, ![100000, 128]⟩ : Shape).Idx → EReal) (nrm : (⟨2, ![100000, 1]⟩ : Shape).Idx → EReal)
    (a b : (⟨1, ![128]⟩ : Shape).Idx → EReal) (w : (⟨2, ![128, 128]⟩ : Shape).Idx → EReal) :
    (⟨2, ![100000, 128]⟩ : Shape).Idx → EReal :=
  fun i => projected (fun k => feat (ix2 (i 0) k)) (fun k => a (ix1 k)) (fun k => b (ix1 k))
    (nrm (ix2 (i 0) (0 : Fin 1))) (fun k j => w (ix2 k j)) (i 1)

/-- The result as one array, from the aggregate, the in-degree factors (a column), the bias and the input. -/
def outArr (agg : (⟨2, ![100000, 128]⟩ : Shape).Idx → EReal) (nrm : (⟨2, ![100000, 1]⟩ : Shape).Idx → EReal)
    (c : (⟨1, ![128]⟩ : Shape).Idx → EReal) (feat : (⟨2, ![100000, 128]⟩ : Shape).Idx → EReal) :
    (⟨2, ![100000, 128]⟩ : Shape).Idx → EReal :=
  fun i => combined (agg i) (nrm (ix2 (i 0) (0 : Fin 1))) (c (ix1 (i 1))) (feat i)

/-- The same two arrays with the norm vectors and the bias given as rows `[1, 128]`, as a kernel's windows hold them. -/
def projArrRows (feat : (⟨2, ![100000, 128]⟩ : Shape).Idx → EReal) (nrm : (⟨2, ![100000, 1]⟩ : Shape).Idx → EReal)
    (a b : (⟨2, ![1, 128]⟩ : Shape).Idx → EReal) (w : (⟨2, ![128, 128]⟩ : Shape).Idx → EReal) :
    (⟨2, ![100000, 128]⟩ : Shape).Idx → EReal :=
  fun i => projected (fun k => feat (ix2 (i 0) k)) (fun k => a (ix2 (0 : Fin 1) k)) (fun k => b (ix2 (0 : Fin 1) k))
    (nrm (ix2 (i 0) (0 : Fin 1))) (fun k j => w (ix2 k j)) (i 1)

def outArrRows (agg : (⟨2, ![100000, 128]⟩ : Shape).Idx → EReal) (nrm : (⟨2, ![100000, 1]⟩ : Shape).Idx → EReal)
    (c : (⟨2, ![1, 128]⟩ : Shape).Idx → EReal) (feat : (⟨2, ![100000, 128]⟩ : Shape).Idx → EReal) :
    (⟨2, ![100000, 128]⟩ : Shape).Idx → EReal :=
  fun i => combined (agg i) (nrm (ix2 (i 0) (0 : Fin 1))) (c (ix2 (0 : Fin 1) (i 1))) (feat i)

end Cert.GraphConvSpec

end
-- ==== Proof.KTerm.lean ====
/-
  The kernel program's host operations as functions of the argument arrays: a node's degree factor as a column, and the
  aggregate of the projected rows along the edges (each edge's source row gathered, a negative index counted from the end,
  and the rows summed into their destination rows from zero).
-/
import proofs.«100118_j65429531787486_1_alg».proof.Proof.Gen.KernelIdeal

noncomputable section

namespace Cert.KernelIdeal.KTerm

open Cert.KernelIdeal Cert.KernelIdeal.Gen Idealize.ShloMosaic Idealize.ShloMosaic.TcCoe

variable {F : FTy → Type} [FloatOps F]

/-- A node's degree factor, as a column: one over the root of its edge count, the count at least one. -/
def degNorm (idx : IVec S1600000 32) : FVec F S100000x1 .f32 :=
  broadcastInDim S100000x1 ![0] bcast_S100000_S100000x1_0
    (Host.rsqrt
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 idx)
          (broadcastInDim S1600000 ![] bcast_S_S1600000 (constant S_ .f32 0x3F800000#32)))
        (broadcastInDim S100000 ![] bcast_S_S100000 (constant S_ .f32 0x3F800000#32))))

/-- The aggregate of the rows of `p` along the edges. -/
def aggregate (p : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 p
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A vector of 128 entries as a row `[1, 128]`. -/
def asRow (v : FVec F S128 .f32) : FVec F S1x128 .f32 := shapeCast S1x128 v shapeCasts_S128_S1x128

end Cert.KernelIdeal.KTerm

end
-- ==== Proof.RefTerm.lean ====
/-
  The reference's result as ONE term of its argument arrays: its operations composed in program order, with the
  outlined helpers (the variance with its guarded quotient, the standard deviation, the clamp at zero) written at
  their call sites. The intermediate values are named after what they are: the row means as a column, the variance
  column, the normalised features, the two degree factors, the projected features, the aggregate.
-/
import proofs.«100118_j65429531787486_1_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The row sums divided by 128, as a column. -/
def meanCol (x : FVec F S100000x128 .f32) : FVec F S100000x1 .f32 :=
  Host.divf
    (broadcastInDim S100000x1 ![0] bcast_S100000_S100000x1_0
      (Host.reduceAdd x (constant S_ .f32 0x00000000#32) reducesTo_S100000x128_S100000_d1 h_S_))
    (broadcastInDim S100000x1 ![] bcast_S_S100000x1 (constant S_ .f32 0x43000000#32))

/-- The divisor of the variance: 128 less the correction 1, converted from the integer. -/
def varDen : FVec F S_ .f32 :=
  subf (constant S_ .f32 0x43000000#32) (sitofp .f32 (constantI S_ 32 1#32))

/-- The variance column: the squared deviations summed over the divisor, kept where the divisor is positive. -/
def varCol (x : FVec F S100000x128 .f32) : FVec F S100000x1 .f32 :=
  select (broadcastInDim S100000x1 ![] bcast_S_S100000x1 (cmpf .ogt (varDen (F := F)) (constant S_ .f32 0x00000000#32)))
    (Host.divf
      (broadcastInDim S100000x1 ![0] bcast_S100000_S100000x1_0
        (Host.reduceAdd
          (mulf (subf x (broadcastInDim S100000x128 ![0, 1] bcast_S100000x1_S100000x128_0_1 (meanCol x)))
                (subf x (broadcastInDim S100000x128 ![0, 1] bcast_S100000x1_S100000x128_0_1 (meanCol x))))
          (constant S_ .f32 0x00000000#32) reducesTo_S100000x128_S100000_d1 h_S_))
      (broadcastInDim S100000x1 ![] bcast_S_S100000x1 (varDen (F := F))))
    (broadcastInDim S100000x1 ![] bcast_S_S100000x1 (id (constant S_ .f32 0x7FC00000#32)))

/-- The normalised features: scale times deviation over (standard deviation + ε), plus shift. -/
def normArr (x : FVec F S100000x128 .f32) (a2 b2 : FVec F S128 .f32) : FVec F S100000x128 .f32 :=
  addf
    (Host.divf
      (mulf (broadcastInDim S100000x128 ![0, 1] bcast_S1x128_S100000x128_0_1 (broadcastInDim S1x128 ![1] bcast_S128_S1x128_1 a2))
            (subf x (broadcastInDim S100000x128 ![0, 1] bcast_S100000x1_S100000x128_0_1 (meanCol x))))
      (broadcastInDim S100000x128 ![0, 1] bcast_S100000x1_S100000x128_0_1
        (addf (Host.sqrt (varCol x)) (broadcastInDim S100000x1 ![] bcast_S_S100000x1 (constant S_ .f32 0x358637BD#32)))))
    (broadcastInDim S100000x128 ![0, 1] bcast_S1x128_S100000x128_0_1 (broadcastInDim S1x128 ![1] bcast_S128_S1x128_1 b2))

/-- A node's degree factor, as a column: one over the root of its edge count, the count at least one. -/
def degNorm (idx : IVec S1600000 32) : FVec F S100000x1 .f32 :=
  broadcastInDim S100000x1 ![0] bcast_S100000_S100000x1_0
    (Host.rsqrt
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 idx)
          (broadcastInDim S1600000 ![] bcast_S_S1600000 (constant S_ .f32 0x3F800000#32)))
        (broadcastInDim S100000 ![] bcast_S_S100000 (constant S_ .f32 0x3F800000#32))))

/-- The projected features: the normalised features scaled by the out-degree factor, times the weights. -/
def projArr (x : FVec F S100000x128 .f32) (src : IVec S1600000 32) (w : FVec F S128x128 .f32) (a2 b2 : FVec F S128 .f32) :
    FVec F S100000x128 .f32 :=
  Host.dotGeneral dot_S100000x128_S128x128_S100000x128_1_0_0_1_n_n none
    (mulf (normArr x a2 b2) (broadcastInDim S100000x128 ![0, 1] bcast_S100000x1_S100000x128_0_1 (degNorm src))) w

/-- The aggregate: each edge's source row (a negative index counted from the end) gathered, and the rows summed into
    their destination rows from zero. -/
def aggregate (p : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 p
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The reference's result. -/
def out (x : FVec F S100000x128 .f32) (src dst : IVec S1600000 32) (w : FVec F S128x128 .f32) (b a2 b2 : FVec F S128 .f32) :
    FVec F S100000x128 .f32 :=
  addf
    (maximumf
      (addf
        (mulf (aggregate (projArr x src w a2 b2) src dst)
              (broadcastInDim S100000x128 ![0, 1] bcast_S100000x1_S100000x128_0_1 (degNorm dst)))
        (broadcastInDim S100000x128 ![0, 1] bcast_S1x128_S100000x128_0_1 (broadcastInDim S1x128 ![1] bcast_S128_S1x128_1 b)))
      (broadcastInDim S100000x128 ![] bcast_S_S100000x128 (constant S_ .f32 0x00000000#32)))
    x

end Cert.ReferenceIdeal.RefTerm

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KVal0.lean ====
/-
  The first region's output array, entry by entry.

  At grid point `t` the body holds rows `2000 t … 2000 t + 1999` of the input and of the degree column, and the whole of
  the scale row, the shift row and the weight matrix. Each row of the block is normalised as a layer norm with the
  unbiased variance (mean = row sum / 128, variance = squared deviations summed / 127, entry
  `(scale · deviation) / (√variance + ε) + shift`), multiplied by the row's degree factor, and multiplied with the weight
  matrix from a zero accumulator; the two roundings on the way into the product are the identity on exact values. So the
  stored block at `(p, q)` is `GraphConvSpec.projected` of row `p`, read at `q` (`pay_apply`). The block a point writes
  back is the block of `GraphConvSpec.projArrRows` its rectangle names, since a block's coordinate in its array is block
  index × block size + the coordinate inside the block (`flushed_eq`); the fifty blocks tile the rows, row `r` lying in
  the block of point `r / 2000` (`cover`); hence the array (`region0_array`).
-/
import proofs.«100118_j65429531787486_1_alg».proof.Proof.Gen.KernelIdeal.Frame
import proofs.«100118_j65429531787486_1_alg».proof.Proof.Spec
import proofs.«100118_j65429531787486_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.KVal0
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## Columns: a vector as a column, a column over many columns -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's non-pointwise operations at an entry -/

/-- A sum along the second axis of a `[2000, 128]` block, read at row `p`: the sum of the row's 128 entries. -/
theorem laneSum_apply (v : FVec Ideal S2000x128 .f32) (h : S2000x128.Reduces [1] S2000) (hφ : FTy.f32 = FTy.f32 ∨ FTy.f32 = FTy.bf16)
    (hacc : (0x00000000#32 : BitVec 32) = 0x00000000#32) (p : Fin 2000) :
    multiReduction (F := Ideal) .add [1] S2000 v 0x00000000#32 h hφ hacc (ix1 p) = ∑ k : Fin 128, v (ix2 p k) := by
  refine (Ideal.multiReduction_add_single v _ h hφ hacc (ix1 p)).trans ?_
  refine Finset.sum_congr rfl fun k _ => congrArg v ?_
  funext a
  apply Fin.ext
  match a with
  | ⟨0, _⟩ => rfl
  | ⟨1, _⟩ => rfl

/-- The root of a block, entry by entry. -/
theorem sqrt_entry {s : Shape} {φ : FTy} (a : FVec Ideal s φ) (i : s.Idx) : sqrt a i = Ideal.sqrt (a i) := rfl

/-- The product of a `[2000, 128]` block with a `[128, 128]` matrix from zero, read at `(p, q)`: row `p` against column `q`. -/
theorem matmul_zero_ix2 {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Idealize.ShloMosaic.PlainDot.matmul_zero_apply 2000 128 128 none l r (ix2 p q)

/-! ## The stored block at an entry -/

/-- The stored block at `(p, q)`: row `p` of the input block normalised (mean over 128, unbiased variance over 127),
    scaled and shifted by the two rows, times the row's degree factor, then summed against column `q` of the weights. -/
theorem pay_entry (x0 : FVec Ideal S2000x128 .f32) (x1 : FVec Ideal S2000x1 .f32) (x2 x3 : FVec Ideal S1x128 .f32) (x4 : FVec Ideal S128x128 .f32)
    (p : Fin 2000) (q : Fin 128) :
    k0_pay1 (F := Ideal) x0 x2 x3 x1 x4 (ix2 p q)
      = Cert.GraphConvSpec.projected (fun k => x0 (ix2 p k)) (fun k => x2 (ix2 (0 : Fin 1) k)) (fun k => x3 (ix2 (0 : Fin 1) k))
          (x1 (ix2 p (0 : Fin 1))) (fun k j => x4 (ix2 k j)) q := by
  unfold k0_pay1
  refine (matmul_zero_ix2 _ _ p q).trans ?_
  unfold Cert.GraphConvSpec.projected
  refine Finset.sum_congr rfl fun k _ => ?_
  simp only [truncf_apply, mulf_apply, addf_apply, divf_apply, subf_apply, sqrt_entry, broadcast_apply,
    broadcastTo_1b_ab_apply, broadcastTo_a1_ab_apply, shapeCast_self, shapeCast_a_a1_apply, Ideal.ofBits_def]
  rw [laneSum_apply x0, laneSum_apply]
  simp only [mulf_apply, subf_apply, divf_apply, broadcast_apply, broadcastTo_a1_ab_apply, shapeCast_a_a1_apply]
  rw [laneSum_apply x0]
  rfl

/-- The same, with the blocks in the order the body's term takes them: the feature block, the scale row, the shift row,
    the degree column, the weights. -/
theorem pay_apply : ∀ (x0 : Vec Ideal S2000x128 .f32) (x2 x3 : Vec Ideal S1x128 .f32) (x1 : Vec Ideal S2000x1 .f32) (x4 : Vec Ideal S128x128 .f32) (p : Fin 2000) (q : Fin 128),
    k0_pay1 (F := Ideal) x0 x2 x3 x1 x4 (ix2 p q)
      = Cert.GraphConvSpec.projected (fun k => x0 (ix2 p k)) (fun k => x2 (ix2 (0 : Fin 1) k)) (fun k => x3 (ix2 (0 : Fin 1) k))
          (x1 (ix2 p (0 : Fin 1))) (fun k j => x4 (ix2 k j)) q :=
  fun x0 x2 x3 x1 x4 p q => pay_entry x0 x1 x2 x3 x4 p q

/-- One entry of a stored block against the array of projected features: when the five loaded blocks are the rows
    `2000 n …` of the input and of the degree column and the whole of the two norm rows and the weight matrix,
    the block's entry `j` is the array's entry at row `2000 n + j 0`, column `j 1`. -/
theorem block_entry (A0 : FVec Ideal S100000x128 .f32) (A1 : FVec Ideal S100000x1 .f32) (A2 A3 : FVec Ideal S1x128 .f32)
    (A4 : FVec Ideal S128x128 .f32)
    (x0 : FVec Ideal S2000x128 .f32) (x1 : FVec Ideal S2000x1 .f32) (x2 x3 : FVec Ideal S1x128 .f32) (x4 : FVec Ideal S128x128 .f32) (n : ℕ)
    (h0 : ∀ (p : Fin 2000) (k : Fin 128) (r : Fin 100000), r.val = n * 2000 + p.val → x0 (ix2 p k) = A0 (ix2 r k))
    (h1 : ∀ (p : Fin 2000) (u : Fin 1) (r : Fin 100000), r.val = n * 2000 + p.val → x1 (ix2 p u) = A1 (ix2 r u))
    (h2 : ∀ (u : Fin 1) (k : Fin 128), x2 (ix2 u k) = A2 (ix2 u k))
    (h3 : ∀ (u : Fin 1) (k : Fin 128), x3 (ix2 u k) = A3 (ix2 u k))
    (h4 : ∀ (k l : Fin 128), x4 (ix2 k l) = A4 (ix2 k l))
    (j : S2000x128.Idx) (i : S100000x128.Idx) (hi0 : (i 0).val = n * 2000 + (j 0).val) (hi1 : (i 1).val = (j 1).val) :
    k0_pay1 (F := Ideal) x0 x2 x3 x1 x4 j = Cert.GraphConvSpec.projArrRows A0 A1 A2 A3 A4 i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [pay_entry]
  show _ = Cert.GraphConvSpec.projected (fun k => A0 (ix2 r k)) (fun k => A2 (ix2 (0 : Fin 1) k)) (fun k => A3 (ix2 (0 : Fin 1) k))
      (A1 (ix2 r (0 : Fin 1))) (fun k l => A4 (ix2 k l)) q'
  rw [funext (fun k => h0 p k r hi0), h1 p 0 r hi0, funext (h2 0), funext (h3 0), funext fun k => funext (h4 k)]

/-! ## From the blocks to the array -/

section Blocks
variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the input rows, the degree column and the output move with the point along the rows;
    the two norm rows and the weight matrix stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input block at point `t` holds rows `2000 t …` of the input array. -/
theorem rows_block (c : Dev nD) (t : Fin cfg0.N) (p : Fin 2000) (k : Fin 128) (r : Fin 100000) (hr : r.val = t.val * 2000 + p.val) :
    (iblk0 V c 0 t : FVec Ideal S2000x128 .f32) (ix2 p k) = (V c main_arg0 : FVec Ideal S100000x128 .f32) (ix2 r k) := by
  obtain ⟨e0, e1, -⟩ := index_facts t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The degree block at point `t` holds rows `2000 t …` of the degree column. -/
theorem degree_block (c : Dev nD) (t : Fin cfg0.N) (p : Fin 2000) (u : Fin 1) (r : Fin 100000) (hr : r.val = t.val * 2000 + p.val) :
    (iblk0 V c 1 t : FVec Ideal S2000x1 .f32) (ix2 p u) = (V c main_v10 : FVec Ideal S100000x1 .f32) (ix2 r u) := by
  obtain ⟨-, -, e0, e1, -⟩ := index_facts t
  unfold iblk0
  rw [View.read_apply]
  show V c main_v10 _ = V c main_v10 _
  refine congrArg (V c main_v10) ?_
  funext a
  apply Fin.ext
  match a with
  | ⟨0, _⟩ => show win0_1.index t (0 : Fin 2) * 2000 + 1 * p.val = r.val; rw [e0, hr]; omega
  | ⟨1, _⟩ => show win0_1.index t (1 : Fin 2) * 1 + 1 * u.val = u.val; rw [e1]; omega

/-- The scale row's block is the whole row at every point. -/
theorem scale_block (c : Dev nD) (t : Fin cfg0.N) (u : Fin 1) (k : Fin 128) :
    (iblk0 V c 2 t : FVec Ideal S1x128 .f32) (ix2 u k) = (V c main_v15 : FVec Ideal S1x128 .f32) (ix2 u k) := by
  obtain ⟨-, -, -, -, e0, e1, -⟩ := index_facts t
  unfold iblk0
  rw [View.read_apply]
  show V c main_v15 _ = V c main_v15 _
  refine congrArg (V c main_v15) ?_
  funext a
  apply Fin.ext
  match a with
  | ⟨0, _⟩ => show win0_2.index t (0 : Fin 2) * 1 + 1 * u.val = u.val; rw [e0]; omega
  | ⟨1, _⟩ => show win0_2.index t (1 : Fin 2) * 128 + 1 * k.val = k.val; rw [e1]; omega

/-- The shift row's block is the whole row at every point. -/
theorem shift_block (c : Dev nD) (t : Fin cfg0.N) (u : Fin 1) (k : Fin 128) :
    (iblk0 V c 3 t : FVec Ideal S1x128 .f32) (ix2 u k) = (V c main_v16 : FVec Ideal S1x128 .f32) (ix2 u k) := by
  obtain ⟨-, -, -, -, -, -, e0, e1, -⟩ := index_facts t
  unfold iblk0
  rw [View.read_apply]
  show V c main_v16 _ = V c main_v16 _
  refine congrArg (V c main_v16) ?_
  funext a
  apply Fin.ext
  match a with
  | ⟨0, _⟩ => show win0_3.index t (0 : Fin 2) * 1 + 1 * u.val = u.val; rw [e0]; omega
  | ⟨1, _⟩ => show win0_3.index t (1 : Fin 2) * 128 + 1 * k.val = k.val; rw [e1]; omega

/-- The weight matrix's block is the whole matrix at every point. -/
theorem weight_block (c : Dev nD) (t : Fin cfg0.N) (k l : Fin 128) :
    (iblk0 V c 4 t : FVec Ideal S128x128 .f32) (ix2 k l) = (V c main_arg3 : FVec Ideal S128x128 .f32) (ix2 k l) := by
  obtain ⟨-, -, -, -, -, -, -, -, e0, e1, -⟩ := index_facts t
  unfold iblk0
  rw [View.read_apply]
  show V c main_arg3 _ = V c main_arg3 _
  refine congrArg (V c main_arg3) ?_
  funext a
  apply Fin.ext
  match a with
  | ⟨0, _⟩ => show win0_4.index t (0 : Fin 2) * 128 + 1 * k.val = k.val; rw [e0]; omega
  | ⟨1, _⟩ => show win0_4.index t (1 : Fin 2) * 128 + 1 * l.val = l.val; rw [e1]; omega

/-- What point `t` writes back is block `t` of the array of projected features. -/
theorem flushed_eq (c : Dev nD) (t : Fin cfg0.N) :
    (dat0 (F := Ideal) V c).flushed 5 t
      = ((cfg0.win 5).blk t).view.read (Elt Ideal)
          (Cert.GraphConvSpec.projArrRows (V c main_arg0) (V c main_v10) (V c main_v15) (V c main_v16) (V c main_arg3)) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S2000x1) zero_offsets,
    View.ld_unit_zero (S := S1x128) zero_offsets, View.ld_unit_zero (S := S128x128) zero_offsets]
  obtain ⟨-, -, -, -, -, -, -, -, -, -, e0, e1⟩ := index_facts t
  funext j
  show k0_pay1 (F := Ideal) (iblk0 V c 0 t) (iblk0 V c 2 t) (iblk0 V c 3 t) (iblk0 V c 1 t) (iblk0 V c 4 t) j
    = Cert.GraphConvSpec.projArrRows (V c main_arg0) (V c main_v10) (V c main_v15) (V c main_v16) (V c main_arg3)
        (((cfg0.win 5).blk t).view.emb j)
  refine block_entry (V c main_arg0) (V c main_v10) (V c main_v15) (V c main_v16) (V c main_arg3)
    (iblk0 V c 0 t) (iblk0 V c 1 t) (iblk0 V c 2 t) (iblk0 V c 3 t) (iblk0 V c 4 t) t.val
    (rows_block V c t) (degree_block V c t) (scale_block V c t) (shift_block V c t) (weight_block V c t)
    j (((cfg0.win 5).blk t).view.emb j) ?_ ?_
  · show win0_5.index t (0 : Fin 2) * 2000 + 1 * (j 0).val = t.val * 2000 + (j 0).val
    rw [e0]; omega
  · show win0_5.index t (1 : Fin 2) * 128 + 1 * (j 1).val = (j 1).val
    rw [e1]; omega

/-- An index of the output array is in point `t`'s block iff each coordinate is in the block's range on its axis. -/
theorem mem_block (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v18).slice (win0_5.rect t)).set ↔ _
  rw [View.set_slice_whole, Rect.mem_set_unit]
  exact Iff.rfl

/-- Every row of the output is in some point's block: row `r` in that of point `r / 2000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, e0, e1⟩ := index_facts ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]; omega

end Blocks

/-- What the first region leaves in its output array, from the arrays it finds. -/
theorem region0_array (V : (c : Dev nD) → (b : Ref sig .tc) → Buf (Elt Ideal) ((c : Thread nD τ).loc b)) (c : Dev nD) :
    (dat0 (F := Ideal) V c).arrAt 5 cfg0.N
      = Cert.GraphConvSpec.projArrRows (V c main_arg0) (V c main_v10) (V c main_v15) (V c main_v16) (V c main_arg3) :=
  (dat0 (F := Ideal) V c).arrAt_eq_of_cover 5
    (Cert.GraphConvSpec.projArrRows (V c main_arg0) (V c main_v10) (V c main_v15) (V c main_v16) (V c main_arg3))
    (fun t _ => flushed_eq V c t) cover

end Cert.KernelIdeal.KVal0

end
-- ==== Proof.KVal1.lean ====
/-
  The second region, entry by entry.

  The region runs over 50 grid points. At point `t` its body sees rows `2000·t … 2000·t + 1999` of the aggregate
  and of the input (both `[100000, 128]`), the same rows of the column of in-degree factors (`[100000, 1]`) and the
  whole bias row (`[1, 128]`), and leaves in the output block, at row `p` and feature `q`,
    max (aggregate · factor of the row + bias of the feature, 0) + input.
  The column is broadcast along the row and the bias row down the rows; every other operation is pointwise.
  A block's entry `(p, q)` sits in its array at row `2000·t + p` (block index × block size + 1 × the coordinate inside
  the block), the output's blocks tile the array (row `r` belongs to point `r / 2000`), so the array the region leaves
  is the specification's `outArrRows` of the four arrays it finds.
-/
import proofs.«100118_j65429531787486_1_alg».proof.Proof.Gen.KernelIdeal.Frame
import proofs.«100118_j65429531787486_1_alg».proof.Proof.Spec
import Idealize.ShloMosaic.Lib.Pipeline.Value
import Idealize.ShloMosaic.Lib.ValueLayout
set_option maxRecDepth 16384

noncomputable section

namespace Cert.KernelIdeal.KVal1
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The zero offsets of a whole-block access, as a constant function. -/
theorem zero_offsets : (![0, 0] : Fin 2 → Nat) = fun _ => 0 := funext fun a => by fin_cases a <;> rfl

/-- A column `[a, 1]` broadcast along the rows to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's result at row `p`, feature `q` of a block: the aggregate's entry times the row's degree factor, plus the
    feature's bias, clamped below at zero, plus the input's entry. -/
theorem payload_apply (x0 x3 : Vec Ideal S2000x128 .f32) (x1 : Vec Ideal S2000x1 .f32) (x2 : Vec Ideal S1x128 .f32)
    (p : Fin 2000) (q : Fin 128) :
    k1_pay1 (F := Ideal) x0 x1 x2 x3 (ix2 p q)
      = Cert.GraphConvSpec.combined (x0 (ix2 p q)) (x1 (ix2 p (0 : Fin 1))) (x2 (ix2 (0 : Fin 1) q)) (x3 (ix2 p q)) := by
  unfold k1_pay1 Cert.GraphConvSpec.combined
  simp only [shapeCast_self]
  rw [addf_apply, maximumf_apply, addf_apply, mulf_apply, broadcast_apply,
    broadcastTo_a1_ab_apply, broadcastTo_1b_ab_apply]
  rfl

/-- Where each window's block sits at grid point `t`: the three row-blocked windows and the output are at block row `t`,
    block column 0; the bias row is always its one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What grid point `t` writes back is rows `2000·t … 2000·t + 1999` of the combined array. -/
theorem flushed_eq (V : (c : Dev nD) → (b : Ref sig .tc) → Buf (Elt Ideal) ((c : Thread nD τ).loc b)) (c : Dev nD)
    (t : Fin cfg1.N) :
    (dat1 (F := Ideal) V c).flushed 4 t
      = ((cfg1.win 4).blk t).view.read (Elt Ideal)
          (Cert.GraphConvSpec.outArrRows (V c main_v28) (V c main_v14) (V c main_v17) (V c main_arg0)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets]
  obtain ⟨e00, e01, e10, e11, e20, e21, e30, e31, e40, e41⟩ := block_indices t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (ix2 p q) = _
  refine (payload_apply (iblk1 V c 0 t) (iblk1 V c 3 t) (iblk1 V c 1 t) (iblk1 V c 2 t) p q).trans ?_
  show Cert.GraphConvSpec.combined
      (V c main_v28 (((cfg1.win 0).blk t).view.emb (ix2 p q)))
      (V c main_v14 (((cfg1.win 1).blk t).view.emb (ix2 p (0 : Fin 1))))
      (V c main_v17 (((cfg1.win 2).blk t).view.emb (ix2 (0 : Fin 1) q)))
      (V c main_arg0 (((cfg1.win 3).blk t).view.emb (ix2 p q)))
    = Cert.GraphConvSpec.combined
      (V c main_v28 (((cfg1.win 4).blk t).view.emb (ix2 p q)))
      (V c main_v14 (ix2 ((((cfg1.win 4).blk t).view.emb (ix2 p q)) 0) (0 : Fin 1)))
      (V c main_v17 (ix2 (0 : Fin 1) ((((cfg1.win 4).blk t).view.emb (ix2 p q)) 1)))
      (V c main_arg0 (((cfg1.win 4).blk t).view.emb (ix2 p q)))
  have h0 : ((cfg1.win 0).blk t).view.emb (ix2 p q) = ((cfg1.win 4).blk t).view.emb (ix2 p q) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * q.val = win1_4.index t (1 : Fin 2) * 128 + 1 * q.val; omega
  have h1 : ((cfg1.win 1).blk t).view.emb (ix2 p (0 : Fin 1))
      = ix2 ((((cfg1.win 4).blk t).view.emb (ix2 p q)) 0) (0 : Fin 1) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 1 + 1 * 0 = 0; omega
  have h2 : ((cfg1.win 2).blk t).view.emb (ix2 (0 : Fin 1) q)
      = ix2 (0 : Fin 1) ((((cfg1.win 4).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  have h3 : ((cfg1.win 3).blk t).view.emb (ix2 p q) = ((cfg1.win 4).blk t).view.emb (ix2 p q) := by
    funext a; apply Fin.ext
    match a with
    | ⟨0, _⟩ => show win1_3.index t (0 : Fin 2) * 2000 + 1 * p.val = win1_4.index t (0 : Fin 2) * 2000 + 1 * p.val; omega
    | ⟨1, _⟩ => show win1_3.index t (1 : Fin 2) * 128 + 1 * q.val = win1_4.index t (1 : Fin 2) * 128 + 1 * q.val; omega
  rw [h0, h1, h2, h3]
  rfl

/-- An index of the array is in grid point `t`'s output block iff each coordinate is in the block's range on its axis. -/
theorem mem_block (t : Fin cfg1.N) (i : S100000x128.Idx) :
    i ∈ ((cfg1.win 4).blk t).view.set
      ↔ ∀ a : Fin 2, win1_4.index t a * S2000x128.size a ≤ (i a).val
          ∧ (i a).val < win1_4.index t a * S2000x128.size a + S2000x128.size a := by
  show i ∈ ((View.whole main_v29).slice (win1_4.rect t)).set ↔ _
  rw [View.set_slice_whole, Rect.mem_set_unit]
  exact Iff.rfl

/-- Every entry of the array is written back: row `r` lies in the block of grid point `r / 2000`. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hlt : (i 0).val / 2000 < cfg1.N := by
    show (i 0).val / 2000 < grid1.N
    rw [N_1]; omega
  obtain ⟨t, ht⟩ : ∃ t : Fin cfg1.N, t.val = (i 0).val / 2000 := ⟨⟨_, hlt⟩, rfl⟩
  obtain ⟨-, -, -, -, -, -, -, -, e40, e41⟩ := block_indices t
  refine ⟨t, flush1_4 t, ?_⟩
  rw [mem_block]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-- What the second region leaves in its output array, from the arrays it finds. -/
theorem region1_array (V : (c : Dev nD) → (b : Ref sig .tc) → Buf (Elt Ideal) ((c : Thread nD τ).loc b)) (c : Dev nD) :
    (dat1 (F := Ideal) V c).arrAt 4 cfg1.N
      = Cert.GraphConvSpec.outArrRows (V c main_v28) (V c main_v14) (V c main_v17) (V c main_arg0) :=
  (dat1 (F := Ideal) V c).arrAt_eq_of_cover 4
    (Cert.GraphConvSpec.outArrRows (V c main_v28) (V c main_v14) (V c main_v17) (V c main_arg0))
    (fun t _ => flushed_eq V c t) covered

end Cert.KernelIdeal.KVal1

end
-- ==== Proof.KHost.lean ====
/-
  The kernel program's result array as a function of the launch contents of its arguments.

  The run is host operations, a first region, host operations, a second region. The first host stretch leaves the two
  degree factors (columns) and the three 128-vectors as rows; the first region's output array is the specification's
  projected features of the input rows; the second host stretch gathers those rows along the edges and sums them into
  their destination rows; the second region's output array is the specification's last stage of that aggregate.
  No host operation writes an argument, and neither region writes an array it only reads, so every argument read on the
  way is the launch contents. A 128-vector given as a row [1, 128] reads at (0, k) as the vector at k, so the
  specification's arrays over rows are its arrays over vectors.
-/
import proofs.«100118_j65429531787486_1_alg».proof.Proof.Gen.KernelIdeal.Frame
import proofs.«100118_j65429531787486_1_alg».proof.Proof.KTerm
import proofs.«100118_j65429531787486_1_alg».proof.Proof.KVal0
import proofs.«100118_j65429531787486_1_alg».proof.Proof.KVal1
import proofs.«100118_j65429531787486_1_alg».proof.Proof.Spec
import Idealize.ShloMosaic.Lib.StableHlo.Run
import Idealize.ShloMosaic.Lib.ValueLayout
import Idealize.ShloMosaic.Lib.Pipeline.Value
set_option maxRecDepth 16384

noncomputable section

namespace Cert.KernelIdeal.KHost
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section Stretches

variable (U : Valuation τ sig (Elt Ideal))

/-! ## The first host stretch read at its results, over any contents it starts from -/

theorem after0_v10 :
    StableHlo.after (hostOps0 (F := Ideal)) U (Proc.devRef .tc main_v10)
      = KTerm.degNorm (F := Ideal) (U (Proc.devRef .tc main_arg1)) := by
  after_results; rfl

theorem after0_v14 :
    StableHlo.after (hostOps0 (F := Ideal)) U (Proc.devRef .tc main_v14)
      = KTerm.degNorm (F := Ideal) (U (Proc.devRef .tc main_arg2)) := by
  after_results; rfl

theorem after0_v15 :
    StableHlo.after (hostOps0 (F := Ideal)) U (Proc.devRef .tc main_v15)
      = KTerm.asRow (F := Ideal) (U (Proc.devRef .tc main_arg5)) := by
  after_results; rfl

theorem after0_v16 :
    StableHlo.after (hostOps0 (F := Ideal)) U (Proc.devRef .tc main_v16)
      = KTerm.asRow (F := Ideal) (U (Proc.devRef .tc main_arg6)) := by
  after_results; rfl

theorem after0_v17 :
    StableHlo.after (hostOps0 (F := Ideal)) U (Proc.devRef .tc main_v17)
      = KTerm.asRow (F := Ideal) (U (Proc.devRef .tc main_arg4)) := by
  after_results; rfl

theorem after0_arg0 :
    StableHlo.after (hostOps0 (F := Ideal)) U (Proc.devRef .tc main_arg0) = U (Proc.devRef .tc main_arg0) :=
  StableHlo.after_of_forall_not_mem _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem after0_arg1 :
    StableHlo.after (hostOps0 (F := Ideal)) U (Proc.devRef .tc main_arg1) = U (Proc.devRef .tc main_arg1) :=
  StableHlo.after_of_forall_not_mem _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem after0_arg2 :
    StableHlo.after (hostOps0 (F := Ideal)) U (Proc.devRef .tc main_arg2) = U (Proc.devRef .tc main_arg2) :=
  StableHlo.after_of_forall_not_mem _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem after0_arg3 :
    StableHlo.after (hostOps0 (F := Ideal)) U (Proc.devRef .tc main_arg3) = U (Proc.devRef .tc main_arg3) :=
  StableHlo.after_of_forall_not_mem _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The second host stretch -/

theorem after1_v28 :
    StableHlo.after (hostOps1 (F := Ideal)) U (Proc.devRef .tc main_v28)
      = KTerm.aggregate (F := Ideal) (U (Proc.devRef .tc main_v18)) (U (Proc.devRef .tc main_arg1)) (U (Proc.devRef .tc main_arg2)) := by
  after_results; rfl

theorem after1_v14 :
    StableHlo.after (hostOps1 (F := Ideal)) U (Proc.devRef .tc main_v14) = U (Proc.devRef .tc main_v14) :=
  StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem after1_v17 :
    StableHlo.after (hostOps1 (F := Ideal)) U (Proc.devRef .tc main_v17) = U (Proc.devRef .tc main_v17) :=
  StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem after1_arg0 :
    StableHlo.after (hostOps1 (F := Ideal)) U (Proc.devRef .tc main_arg0) = U (Proc.devRef .tc main_arg0) :=
  StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Stretches

/-! ## A vector as a row: the specification's arrays over rows are its arrays over vectors -/

/-- A 128-vector as a row `[1, 128]` reads at `(0, k)` as the vector at `k`. -/
theorem asRow_apply (v : FVec Ideal S128 .f32) (k : Fin 128) :
    KTerm.asRow (F := Ideal) v (ix2 (0 : Fin 1) k) = v (ix1 k) :=
  shapeCast_a_1a_apply v shapeCasts_S128_S1x128 0 k

theorem projArrRows_asRow (x : FVec Ideal S100000x128 .f32) (n : FVec Ideal S100000x1 .f32)
    (a b : FVec Ideal S128 .f32) (w : FVec Ideal S128x128 .f32) :
    Cert.GraphConvSpec.projArrRows x n (KTerm.asRow (F := Ideal) a) (KTerm.asRow (F := Ideal) b) w
      = Cert.GraphConvSpec.projArr x n a b w := by
  funext i
  simp only [Cert.GraphConvSpec.projArrRows, Cert.GraphConvSpec.projArr, asRow_apply]

theorem outArrRows_asRow (g : FVec Ideal S100000x128 .f32) (n : FVec Ideal S100000x1 .f32)
    (b : FVec Ideal S128 .f32) (x : FVec Ideal S100000x128 .f32) :
    Cert.GraphConvSpec.outArrRows g n (KTerm.asRow (F := Ideal) b) x = Cert.GraphConvSpec.outArr g n b x := by
  funext i
  exact congrArg (fun t => Cert.GraphConvSpec.combined (g i) (n (ix2 (i 0) (0 : Fin 1))) t (x i)) (asRow_apply b (i 1))

variable (m : (ℓ : Loc nD τ sig) → Buf (Elt Ideal) ℓ) (ρ : Dev nD → PrngReg)

/-! ## The first region's entry: the launch contents and the first stretch's results -/

theorem V1_arg0 (c : Dev nD) : V1 (F := Ideal) m ρ c main_arg0 = m ((c : Thread nD τ).loc main_arg0) :=
  after0_arg0 (W0 m ρ c)
theorem V1_arg3 (c : Dev nD) : V1 (F := Ideal) m ρ c main_arg3 = m ((c : Thread nD τ).loc main_arg3) :=
  after0_arg3 (W0 m ρ c)
theorem V1_v10 (c : Dev nD) :
    V1 (F := Ideal) m ρ c main_v10 = KTerm.degNorm (F := Ideal) (m ((c : Thread nD τ).loc main_arg1)) :=
  after0_v10 (W0 m ρ c)
theorem V1_v15 (c : Dev nD) :
    V1 (F := Ideal) m ρ c main_v15 = KTerm.asRow (F := Ideal) (m ((c : Thread nD τ).loc main_arg5)) :=
  after0_v15 (W0 m ρ c)
theorem V1_v16 (c : Dev nD) :
    V1 (F := Ideal) m ρ c main_v16 = KTerm.asRow (F := Ideal) (m ((c : Thread nD τ).loc main_arg6)) :=
  after0_v16 (W0 m ρ c)

/-! ## The first region's exit -/

/-- The first region's output array: the projected features of the launch contents. -/
theorem W2_v18 (c : Dev nD) :
    W2 (F := Ideal) m ρ c (Proc.devRef .tc main_v18)
      = Cert.GraphConvSpec.projArr (m ((c : Thread nD τ).loc main_arg0)) (KTerm.degNorm (F := Ideal) (m ((c : Thread nD τ).loc main_arg1)))
          (m ((c : Thread nD τ).loc main_arg5)) (m ((c : Thread nD τ).loc main_arg6)) (m ((c : Thread nD τ).loc main_arg3)) := by
  rw [show W2 (F := Ideal) m ρ c (Proc.devRef .tc main_v18) = (dat0 (V1 m ρ) c).arrAt 5 cfg0.N from W2_arr m ρ c 5,
    KVal0.region0_array, V1_arg0, V1_v10, V1_v15, V1_v16, V1_arg3, projArrRows_asRow]

theorem W2_arg0 (c : Dev nD) : W2 (F := Ideal) m ρ c (Proc.devRef .tc main_arg0) = m ((c : Thread nD τ).loc main_arg0) :=
  (W2_arr m ρ c 0).trans (((dat0 (V1 m ρ) c).arrAt_in 0 rfl _).trans ((A_eq0 (V1 m ρ) c 0).trans (V1_arg0 m ρ c)))
theorem W2_arg1 (c : Dev nD) : W2 (F := Ideal) m ρ c (Proc.devRef .tc main_arg1) = m ((c : Thread nD τ).loc main_arg1) :=
  (W2_of_ne m ρ c main_arg1 (by decide)).trans (after0_arg1 (W0 m ρ c))
theorem W2_arg2 (c : Dev nD) : W2 (F := Ideal) m ρ c (Proc.devRef .tc main_arg2) = m ((c : Thread nD τ).loc main_arg2) :=
  (W2_of_ne m ρ c main_arg2 (by decide)).trans (after0_arg2 (W0 m ρ c))
theorem W2_v14 (c : Dev nD) :
    W2 (F := Ideal) m ρ c (Proc.devRef .tc main_v14) = KTerm.degNorm (F := Ideal) (m ((c : Thread nD τ).loc main_arg2)) :=
  (W2_of_ne m ρ c main_v14 (by decide)).trans (after0_v14 (W0 m ρ c))
theorem W2_v17 (c : Dev nD) :
    W2 (F := Ideal) m ρ c (Proc.devRef .tc main_v17) = KTerm.asRow (F := Ideal) (m ((c : Thread nD τ).loc main_arg4)) :=
  (W2_of_ne m ρ c main_v17 (by decide)).trans (after0_v17 (W0 m ρ c))

/-! ## The second region's entry -/

/-- The aggregate the second region reads: of the projected features, along the launch contents' edges. -/
theorem V3_v28 (c : Dev nD) :
    V3 (F := Ideal) m ρ c main_v28
      = KTerm.aggregate (F := Ideal)
          (Cert.GraphConvSpec.projArr (m ((c : Thread nD τ).loc main_arg0)) (KTerm.degNorm (F := Ideal) (m ((c : Thread nD τ).loc main_arg1)))
            (m ((c : Thread nD τ).loc main_arg5)) (m ((c : Thread nD τ).loc main_arg6)) (m ((c : Thread nD τ).loc main_arg3)))
          (m ((c : Thread nD τ).loc main_arg1)) (m ((c : Thread nD τ).loc main_arg2)) := by
  rw [show V3 (F := Ideal) m ρ c main_v28
        = KTerm.aggregate (F := Ideal) (W2 m ρ c (Proc.devRef .tc main_v18)) (W2 m ρ c (Proc.devRef .tc main_arg1))
            (W2 m ρ c (Proc.devRef .tc main_arg2)) from after1_v28 (W2 m ρ c),
    W2_v18, W2_arg1, W2_arg2]
theorem V3_v14 (c : Dev nD) :
    V3 (F := Ideal) m ρ c main_v14 = KTerm.degNorm (F := Ideal) (m ((c : Thread nD τ).loc main_arg2)) :=
  (after1_v14 (W2 m ρ c)).trans (W2_v14 m ρ c)
theorem V3_v17 (c : Dev nD) :
    V3 (F := Ideal) m ρ c main_v17 = KTerm.asRow (F := Ideal) (m ((c : Thread nD τ).loc main_arg4)) :=
  (after1_v17 (W2 m ρ c)).trans (W2_v17 m ρ c)
theorem V3_arg0 (c : Dev nD) : V3 (F := Ideal) m ρ c main_arg0 = m ((c : Thread nD τ).loc main_arg0) :=
  (after1_arg0 (W2 m ρ c)).trans (W2_arg0 m ρ c)

/-- The kernel program's result array after the run, as the specification's last stage of the aggregate of the
    specification's projected features, all of the launch contents of the arguments. -/
theorem kernel_value (c : Dev nD) :
    W4 (F := Ideal) m ρ c (Proc.devRef .tc main_v29)
      = Cert.GraphConvSpec.outArr
          (KTerm.aggregate (F := Ideal)
            (Cert.GraphConvSpec.projArr (m ((c : Thread nD τ).loc main_arg0)) (KTerm.degNorm (F := Ideal) (m ((c : Thread nD τ).loc main_arg1)))
              (m ((c : Thread nD τ).loc main_arg5)) (m ((c : Thread nD τ).loc main_arg6)) (m ((c : Thread nD τ).loc main_arg3)))
            (m ((c : Thread nD τ).loc main_arg1)) (m ((c : Thread nD τ).loc main_arg2)))
          (KTerm.degNorm (F := Ideal) (m ((c : Thread nD τ).loc main_arg2))) (m ((c : Thread nD τ).loc main_arg4))
          (m ((c : Thread nD τ).loc main_arg0)) := by
  rw [show W4 (F := Ideal) m ρ c (Proc.devRef .tc main_v29) = (dat1 (V3 m ρ) c).arrAt 4 cfg1.N from W4_arr m ρ c 4,
    KVal1.region1_array, V3_v28, V3_v14, V3_v17, V3_arg0, outArrRows_asRow]

end Cert.KernelIdeal.KHost

end
-- ==== Proof.RefRun.lean ====
/-
  The reference program's run, read back: @main with its outlined helpers (the standard deviation, the variance
  inside it, the guarded quotient inside that, the clamp at zero) unfolded at their calls is one straight line of
  89 array operations; the fold of their results over the launch contents, read at the result, is the composed
  term of the seven arguments, and no operation writes an argument.
-/
import proofs.«100118_j65429531787486_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 89 operations in order, each call's operations at the call site over that call's own values. -/
abbrev ops : List (HloOp τ sig (Elt F)) :=
  [
    -- the row sums over 128 as a column (the mean), and the integer 1 of the variance's correction
    nullary main_cst (constant S_ .f32 0x00000000#32),
    binary main_arg0 main_cst main_v0 (fun x v => Host.reduceAdd x v reducesTo_S100000x128_S100000_d1 h_S_),
    unary main_v0 main_v1 (broadcastInDim S100000x1 ![0] bcast_S100000_S100000x1_0),
    nullary main_cst_0 (constant S_ .f32 0x43000000#32),
    unary main_cst_0 main_v2 (broadcastInDim S100000x1 ![] bcast_S_S100000x1),
    binary main_v1 main_v2 main_v3 Host.divf,
    nullary main_c (constantI S_ 32 1#32),
    -- inside the variance: the same row mean again
    TRef.nullary main_call0.call0.cst (constant S_ .f32 0x00000000#32),
    TRef.binary (.of main_arg0) main_call0.call0.cst main_call0.call0.v0 (fun x v => Host.reduceAdd x v reducesTo_S100000x128_S100000_d1 h_S_),
    TRef.unary main_call0.call0.v0 main_call0.call0.v1 (broadcastInDim S100000x1 ![0] bcast_S100000_S100000x1_0),
    TRef.nullary main_call0.call0.cst_0 (constant S_ .f32 0x43000000#32),
    TRef.unary main_call0.call0.cst_0 main_call0.call0.v2 (broadcastInDim S100000x1 ![] bcast_S_S100000x1),
    TRef.binary main_call0.call0.v1 main_call0.call0.v2 main_call0.call0.v3 Host.divf,
    -- the deviations from the mean, squared
    TRef.unary main_call0.call0.v3 main_call0.call0.v4 (broadcastInDim S100000x128 ![0, 1] bcast_S100000x1_S100000x128_0_1),
    TRef.binary (.of main_arg0) main_call0.call0.v4 main_call0.call0.v5 subf,
    TRef.binary main_call0.call0.v5 main_call0.call0.v5 main_call0.call0.v6 mulf,
    -- the divisor 128 − 1, converted from the integer
    TRef.unary (.of main_c) main_call0.call0.v7 (sitofp .f32),
    TRef.nullary main_call0.call0.cst_1 (constant S_ .f32 0x43000000#32),
    TRef.binary main_call0.call0.cst_1 main_call0.call0.v7 main_call0.call0.v8 subf,
    -- the squared deviations summed by row, over the divisor
    TRef.nullary main_call0.call0.cst_2 (constant S_ .f32 0x00000000#32),
    TRef.binary main_call0.call0.v6 main_call0.call0.cst_2 main_call0.call0.v9 (fun x v => Host.reduceAdd x v reducesTo_S100000x128_S100000_d1 h_S_),
    TRef.unary main_call0.call0.v9 main_call0.call0.v10 (broadcastInDim S100000x1 ![0] bcast_S100000_S100000x1_0),
    TRef.unary main_call0.call0.v8 main_call0.call0.v11 (broadcastInDim S100000x1 ![] bcast_S_S100000x1),
    TRef.binary main_call0.call0.v10 main_call0.call0.v11 main_call0.call0.v12 Host.divf,
    -- the quotient kept where the divisor is positive, not-a-number elsewhere
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S100000x1 ![] bcast_S_S100000x1),
    TRef.ternary main_call0.call0.v13 main_call0.call0.v12 main_call0.call0.call0.v1 main_call0.call0.call0.v2 (fun p a b => select (broadcastInDim S100000x1 ![] bcast_S_S100000x1 p) a b),
    -- the standard deviation: the root of the variance
    TRef.unary main_call0.call0.call0.v2 main_call0.v1 Host.sqrt,
    -- the normalised features: scale × deviation / (standard deviation + ε) + shift
    unary main_v3 main_v5 (broadcastInDim S100000x128 ![0, 1] bcast_S100000x1_S100000x128_0_1),
    binary main_arg0 main_v5 main_v6 subf,
    unary main_arg5 main_v7 (broadcastInDim S1x128 ![1] bcast_S128_S1x128_1),
    unary main_v7 main_v8 (broadcastInDim S100000x128 ![0, 1] bcast_S1x128_S100000x128_0_1),
    binary main_v8 main_v6 main_v9 mulf,
    nullary main_cst_1 (constant S_ .f32 0x358637BD#32),
    unary main_cst_1 main_v10 (broadcastInDim S100000x1 ![] bcast_S_S100000x1),
    binary main_v4 main_v10 main_v11 addf,
    unary main_v11 main_v12 (broadcastInDim S100000x128 ![0, 1] bcast_S100000x1_S100000x128_0_1),
    binary main_v9 main_v12 main_v13 Host.divf,
    unary main_arg6 main_v14 (broadcastInDim S1x128 ![1] bcast_S128_S1x128_1),
    unary main_v14 main_v15 (broadcastInDim S100000x128 ![0, 1] bcast_S1x128_S100000x128_0_1),
    binary main_v13 main_v15 main_v16 addf,
    -- the two degree factors: edge counts by scatter-add of ones, at least one, inverse root, as columns
    nullary main_cst_2 (constant S_ .f32 0x3F800000#32),
    unary main_cst_2 main_v17 (broadcastInDim S1600000 ![] bcast_S_S1600000),
    nullary main_cst_3 (constant S_ .f32 0x00000000#32),
    unary main_cst_3 main_v18 (broadcastInDim S100000 ![] bcast_S_S100000),
    unary main_arg1 main_v19 (broadcastInDim S1600000x1 ![0] bcast_S1600000_S1600000x1_0),
    ternary main_v18 main_v19 main_v17 main_v20 (fun x i u => Host.scatterAdd scatter_S100000_S1600000x1_S1600000_n_0_0_1 x i u),
    nullary main_cst_4 (constant S_ .f32 0x00000000#32),
    unary main_cst_4 main_v21 (broadcastInDim S100000 ![] bcast_S_S100000),
    unary main_arg2 main_v22 (broadcastInDim S1600000x1 ![0] bcast_S1600000_S1600000x1_0),
    ternary main_v21 main_v22 main_v17 main_v23 (fun x i u => Host.scatterAdd scatter_S100000_S1600000x1_S1600000_n_0_0_1 x i u),
    nullary main_cst_5 (constant S_ .f32 0x3F800000#32),
    unary main_cst_5 main_v24 (broadcastInDim S100000 ![] bcast_S_S100000),
    binary main_v20 main_v24 main_v25 maximumf,
    unary main_v25 main_v26 Host.rsqrt,
    unary main_v26 main_v27 (broadcastInDim S100000x1 ![0] bcast_S100000_S100000x1_0),
    nullary main_cst_6 (constant S_ .f32 0x3F800000#32),
    unary main_cst_6 main_v28 (broadcastInDim S100000 ![] bcast_S_S100000),
    binary main_v23 main_v28 main_v29 maximumf,
    unary main_v29 main_v30 Host.rsqrt,
    unary main_v30 main_v31 (broadcastInDim S100000x1 ![0] bcast_S100000_S100000x1_0),
    -- the normalised features scaled by the out-degree factor, times the weights
    unary main_v27 main_v32 (broadcastInDim S100000x128 ![0, 1] bcast_S100000x1_S100000x128_0_1),
    binary main_v16 main_v32 main_v33 mulf,
    binary main_v33 main_arg3 main_v34 (fun l r => Host.dotGeneral dot_S100000x128_S128x128_S100000x128_1_0_0_1_n_n none l r),
    -- each edge's source row (a negative index counted from the end), gathered
    nullary main_c_7 (constantI S_ 32 0#32),
    unary main_c_7 main_v35 (broadcastInDim S1600000 ![] bcast_S_S1600000),
    binary main_arg1 main_v35 main_v36 (cmpi .slt),
    nullary main_c_8 (constantI S_ 32 100000#32),
    unary main_c_8 main_v37 (broadcastInDim S1600000 ![] bcast_S_S1600000),
    binary main_arg1 main_v37 main_v38 addi,
    ternary main_v36 main_v38 main_arg1 main_v39 select,
    unary main_v39 main_v40 (broadcastInDim S1600000x1 ![0] bcast_S1600000_S1600000x1_0),
    binary main_v34 main_v40 main_v41 (fun x i => Host.gather gather_S100000x128_S1600000x1_S1600000x128_1_0_n_n_0_1_1128 x i),
    -- the gathered rows summed into their destination rows, from zero
    nullary main_cst_9 (constant S_ .f32 0x00000000#32),
    unary main_cst_9 main_v42 (broadcastInDim S100000x128 ![] bcast_S_S100000x128),
    unary main_arg2 main_v43 (broadcastInDim S1600000x1 ![0] bcast_S1600000_S1600000x1_0),
    ternary main_v42 main_v43 main_v41 main_v44 (fun x i u => Host.scatterAdd scatter_S100000x128_S1600000x1_S1600000x128_1_0_0_1 x i u),
    -- scaled by the in-degree factor, plus the bias
    unary main_v31 main_v45 (broadcastInDim S100000x128 ![0, 1] bcast_S100000x1_S100000x128_0_1),
    binary main_v44 main_v45 main_v46 mulf,
    unary main_arg4 main_v47 (broadcastInDim S1x128 ![1] bcast_S128_S1x128_1),
    unary main_v47 main_v48 (broadcastInDim S100000x128 ![0, 1] bcast_S1x128_S100000x128_0_1),
    binary main_v46 main_v48 main_v49 addf,
    -- the clamp at zero
    TRef.nullary main_call1.cst (constant S_ .f32 0x00000000#32),
    TRef.unary main_call1.cst main_call1.v0 (broadcastInDim S100000x128 ![] bcast_S_S100000x128),
    TRef.binary (.of main_v49) main_call1.v0 main_call1.v1 maximumf,
    -- plus the input
    binary main_v50 main_arg0 main_v51 addf ]

set_option maxRecDepth 4096 in
set_option maxHeartbeats 4000000 in
/-- @main is that straight line: the helpers' definitions unfolded at their calls, sequencing reassociated. -/
theorem main_eq (c : Dev nD) : main (F := F) c = seq ops := by
  simp only [main, main_part0, main_part1, fn_std.body, fn_var.body, fn_where.body, fn_relu.body, seq, bind_assoc, pure_bind]
  rfl

/-- No value of the program is scoped. -/
theorem scopedRefs_eq : (Finset.univ.filter fun b : Ref sig .tc => b.isScoped) = ∅ := by decide
theorem scopedSems_eq : (Finset.univ.filter fun sm : SemLoc sig => sm.isScoped .tc) = ∅ := by decide

/-- Every operation reads and writes values of the program only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., binary_bufs_sub .., unary_bufs_sub .., unary_bufs_sub .., nullary_bufs_sub ..,
    unary_bufs_sub .., binary_bufs_sub .., unary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., unary_bufs_sub .., unary_bufs_sub ..,
    binary_bufs_sub .., nullary_bufs_sub .., unary_bufs_sub .., binary_bufs_sub .., binary_bufs_sub ..⟩

set_option maxRecDepth 8192 in
set_option maxHeartbeats 4000000 in
/-- The fold read at the result: each operation's value at the value it defines, every other value as it was; a
    typed value's transport along its own type is the identity; what is left is the composed term, its named
    intermediates unfolded. -/
theorem out_eq (V : Valuation τ sig (Elt F)) :
    after ops V (main_v51 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  simp only [TRef.ofBuf, TRef.toBuf, cast_eq]
  simp only [RefTerm.out, RefTerm.aggregate, RefTerm.projArr, RefTerm.normArr, RefTerm.degNorm, RefTerm.varCol,
    RefTerm.varDen, RefTerm.meanCol]

/-! No operation defines an argument: the fold leaves each as it was. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

/-- Every weakly fair execution of the reference terminates, its result at the composed term of the arguments,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = RefTerm.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono
    (fun _ h c => ⟨(h c main_v51).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_seq scopedRefs_eq scopedSems_eq defs main (fun _ => ops) main_eq (fun _ => ops_sub) m ρ)

end Cert.ReferenceIdeal.RefRun

end
-- ==== Proof.RefValue.lean ====
/-
  The reference's composed term read at an index is the specification, over the extended reals.

  Each broadcast is read at literal coordinates (a column entry `(r, q)` reads `(r, 0)`, a row entry reads `(0, q)`, a
  scalar reads its one entry); a sum over axis 1 from the zero word is the sum of the row's 128 entries; the plain product
  at `(r, q)` is the sum over the contracted coordinate. The variance's divisor, 128 less the converted integer 1, is the
  word of 127 and lies above zero, so the guarded quotient is the quotient itself. With these the mean and variance
  columns are the row's mean and unbiased variance, the normalised features are the specification's entry, and the
  projected features are its weighted sum. The degree factors and the aggregate stay closed: the result follows by
  rewriting under the aggregate and reading the last stage (scale, bias, clamp below at zero, add the input) at an index.
-/
import proofs.«100118_j65429531787486_1_alg».proof.Proof.RefTerm
import proofs.«100118_j65429531787486_1_alg».proof.Proof.Spec
import proofs.«100118_j65429531787486_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.TcCoe Idealize.ShloMosaic.ValueIdx

/-! ## Broadcasts read at an index -/

section Bcast
variable {α : Type}

/-- A column `[100000, 1]` broadcast along both axes to `[100000, 128]`: entry `(r, q)` reads `(r, 0)`. -/
theorem bcast_col_apply (h : S100000x1.BroadcastsInDim S100000x128 (![0, 1] : Fin 2 → Fin S100000x128.rank))
    (v : S100000x1.Idx → α) (r : Fin 100000) (q : Fin 128) :
    broadcastInDim S100000x128 ![0, 1] h v (ix2 r q) = v (ix2 r (0 : Fin 1)) := by
  refine broadcastInDim_apply ![0, 1] h v (ix2 r q) (ix2 r (0 : Fin 1)) ?_
  intro a
  match a with
  | ⟨0, _⟩ => exact (if_neg (show ¬(100000 : ℕ) = 1 by decide)).symm
  | ⟨1, _⟩ => exact (if_pos rfl).symm

/-- A row `[1, 128]` broadcast along both axes to `[100000, 128]`: entry `(r, q)` reads `(0, q)`. -/
theorem bcast_row_apply (h : S1x128.BroadcastsInDim S100000x128 (![0, 1] : Fin 2 → Fin S100000x128.rank))
    (v : S1x128.Idx → α) (r : Fin 100000) (q : Fin 128) :
    broadcastInDim S100000x128 ![0, 1] h v (ix2 r q) = v (ix2 (0 : Fin 1) q) := by
  refine broadcastInDim_apply ![0, 1] h v (ix2 r q) (ix2 (0 : Fin 1) q) ?_
  intro a
  match a with
  | ⟨0, _⟩ => exact (if_pos rfl).symm
  | ⟨1, _⟩ => exact (if_neg (show ¬(128 : ℕ) = 1 by decide)).symm

/-- A vector `[128]` laid along axis 1 of `[1, 128]`: entry `(0, q)` reads `q`. -/
theorem bcast_vec_row_apply (h : S128.BroadcastsInDim S1x128 (![1] : Fin 1 → Fin S1x128.rank))
    (v : S128.Idx → α) (q : Fin 128) :
    broadcastInDim S1x128 ![1] h v (ix2 (0 : Fin 1) q) = v (ix1 q) := by
  refine broadcastInDim_apply ![1] h v (ix2 (0 : Fin 1) q) (ix1 q) ?_
  intro a
  match a with
  | ⟨0, _⟩ => exact (if_neg (show ¬(128 : ℕ) = 1 by decide)).symm

/-- A vector `[100000]` laid along axis 0 of `[100000, 1]`: entry `(r, 0)` reads `r`. -/
theorem bcast_vec_col_apply (h : S100000.BroadcastsInDim S100000x1 (![0] : Fin 1 → Fin S100000x1.rank))
    (v : S100000.Idx → α) (r : Fin 100000) :
    broadcastInDim S100000x1 ![0] h v (ix2 r (0 : Fin 1)) = v (ix1 r) := by
  refine broadcastInDim_apply ![0] h v (ix2 r (0 : Fin 1)) (ix1 r) ?_
  intro a
  match a with
  | ⟨0, _⟩ => exact (if_neg (show ¬(100000 : ℕ) = 1 by decide)).symm

end Bcast

/-! ## A row sum read at an index -/

/-- The sum over axis 1 from the zero word, at row `r`: the sum of the row's 128 entries. -/
theorem rowSum_apply (y : FVec Ideal S100000x128 .f32) (r : Fin 100000) :
    Host.reduceAdd (F := Ideal) y (constant (F := Ideal) S_ .f32 0x00000000#32) reducesTo_S100000x128_S100000_d1 h_S_ (ix1 r)
      = ∑ k : Fin 128, y (ix2 r k) := by
  have h : S100000x128.Reduces [1] S100000 := by decide
  rw [hostReduceAdd_apply]
  refine (Ideal.hostReduceAdd_single reducesTo_S100000x128_S100000_d1 h y _ (ix1 r)).trans ?_
  show Ideal.ofBits .f32 0x00000000#32 + ∑ k : Fin 128, y (h.lift (ix1 r) k) = _
  rw [Ideal.ofBits_zero_f32, zero_add]
  refine Finset.sum_congr rfl fun k _ => congrArg y ?_
  funext a
  match a with
  | ⟨0, _⟩ => rfl
  | ⟨1, _⟩ => rfl

/-! ## The constant words the variance's divisor is made of -/

/-- The word `0x43000000` is 128. -/
theorem ofBits_128 : Ideal.ofBits .f32 0x43000000#32 = ((128 : ℝ) : EReal) := by
  simp [Ideal.ofBits, Ideal.ieee, -EReal.coe_mul]; norm_num

/-- The word `0x42FE0000` is 127. -/
theorem ofBits_127 : Ideal.ofBits .f32 0x42FE0000#32 = ((127 : ℝ) : EReal) := by
  simp [Ideal.ofBits, Ideal.ieee, -EReal.coe_mul]; norm_num

/-- The variance's divisor, 128 less the integer 1 converted, is 127: the word `0x42FE0000`. -/
theorem varDen_eq : RefTerm.varDen (F := Ideal) ix0 = Ideal.ofBits .f32 0x42FE0000#32 := by
  show Ideal.ofBits .f32 0x43000000#32 - (((1#32 : BitVec 32).toInt : ℝ) : EReal) = _
  have h1 : (1#32 : BitVec 32).toInt = 1 := by decide
  rw [ofBits_128, ofBits_127, h1, ← EReal.coe_sub]
  norm_num

/-- The divisor is above zero, so the guard of the quotient holds. -/
theorem varDen_pos :
    FloatOps.cmpf (F := Ideal) .ogt (RefTerm.varDen (F := Ideal) ix0) (Ideal.ofBits .f32 0x00000000#32) = 1#1 := by
  rw [varDen_eq, ofBits_127, Ideal.ofBits_zero_f32]
  show BitVec.ofBool (decide ((0 : EReal) < ((127 : ℝ) : EReal))) = 1#1
  rw [decide_eq_true (EReal.coe_pos.mpr (by norm_num))]
  rfl

/-! ## The reference's columns and arrays read at an index -/

/-- The mean column at row `r` is the row's mean. -/
theorem meanCol_apply (x : FVec Ideal S100000x128 .f32) (r : Fin 100000) :
    RefTerm.meanCol (F := Ideal) x (ix2 r (0 : Fin 1)) = Cert.GraphConvSpec.rowMean (fun k => x (ix2 r k)) := by
  unfold RefTerm.meanCol
  rw [hostDivf_apply, bcast_vec_col_apply, rowSum_apply, broadcastInDim_scalar_apply]
  rfl

/-- A deviation from the row's mean, at `(r, k)`. -/
theorem dev_apply (x : FVec Ideal S100000x128 .f32) (r : Fin 100000) (k : Fin 128) :
    subf x (broadcastInDim S100000x128 ![0, 1] bcast_S100000x1_S100000x128_0_1 (RefTerm.meanCol (F := Ideal) x)) (ix2 r k)
      = x (ix2 r k) - Cert.GraphConvSpec.rowMean (fun k => x (ix2 r k)) := by
  rw [subf_apply, bcast_col_apply, meanCol_apply]

/-- The variance column at row `r` is the row's unbiased variance: the guard holds, so the quotient is taken. -/
theorem varCol_apply (x : FVec Ideal S100000x128 .f32) (r : Fin 100000) :
    RefTerm.varCol (F := Ideal) x (ix2 r (0 : Fin 1)) = Cert.GraphConvSpec.rowVar (fun k => x (ix2 r k)) := by
  unfold RefTerm.varCol
  rw [select_apply, broadcastInDim_scalar_apply, cmpf_apply, constant_apply, varDen_pos, select_one,
    hostDivf_apply, bcast_vec_col_apply, rowSum_apply, broadcastInDim_scalar_apply, varDen_eq]
  refine congrArg (fun s => Ideal.div s (Ideal.ofBits .f32 0x42FE0000#32)) (Finset.sum_congr rfl fun k _ => ?_)
  rw [mulf_apply, dev_apply]

/-- The normalised features at `(r, k)`: scale times deviation over (standard deviation + ε), plus shift. -/
theorem normArr_apply (x : FVec Ideal S100000x128 .f32) (a2 b2 : FVec Ideal S128 .f32) (r : Fin 100000) (k : Fin 128) :
    RefTerm.normArr (F := Ideal) x a2 b2 (ix2 r k)
      = Ideal.div (a2 (ix1 k) * (x (ix2 r k) - Cert.GraphConvSpec.rowMean (fun k => x (ix2 r k))))
          (Ideal.sqrt (Cert.GraphConvSpec.rowVar (fun k => x (ix2 r k))) + Ideal.ofBits .f32 0x358637BD#32)
        + b2 (ix1 k) := by
  unfold RefTerm.normArr
  rw [addf_apply, hostDivf_apply, mulf_apply, dev_apply, bcast_row_apply, bcast_vec_row_apply, bcast_col_apply, addf_apply,
    broadcastInDim_scalar_apply, bcast_row_apply, bcast_vec_row_apply]
  show Ideal.div _ (Ideal.sqrt (RefTerm.varCol (F := Ideal) x (ix2 r (0 : Fin 1))) + _) + _ = _
  rw [varCol_apply]
  rfl

/-- The plain product `[100000, 128] × [128, 128]` at `(r, q)`: the sum over the 128 contracted coordinates. -/
theorem dot_apply (l : FVec Ideal S100000x128 .f32) (w : FVec Ideal S128x128 .f32) (r : Fin 100000) (q : Fin 128) :
    Host.dotGeneral (F := Ideal) dot_S100000x128_S128x128_S100000x128_1_0_0_1_n_n none l w (ix2 r q)
      = ∑ k : Fin 128, l (ix2 r k) * w (ix2 k q) := by
  show FloatOps.dotGeneral (F := Ideal) (DotDims.plain 100000 128 128) none .single l w (ix2 r q) = _
  rw [Ideal.dotGeneral_apply]
  exact PlainDot.sum_contr 100000 128 128 l w (ix2 r q)

/-- The reference's projected features are the specification's, entry by entry. -/
theorem projArr_eq (x : FVec Ideal S100000x128 .f32) (src : IVec S1600000 32) (w : FVec Ideal S128x128 .f32)
    (a2 b2 : FVec Ideal S128 .f32) :
    RefTerm.projArr (F := Ideal) x src w a2 b2
      = Cert.GraphConvSpec.projArr x (RefTerm.degNorm (F := Ideal) src) a2 b2 w := by
  funext i
  obtain ⟨r, q, rfl⟩ : ∃ (r : Fin 100000) (q : Fin 128), i = ix2 r q := ⟨i 0, i 1, eq_ix2 i⟩
  unfold RefTerm.projArr
  rw [dot_apply]
  show _ = ∑ k : Fin 128, Cert.GraphConvSpec.normed (fun k => x (ix2 r k)) (fun k => a2 (ix1 k)) (fun k => b2 (ix1 k))
      (RefTerm.degNorm (F := Ideal) src (ix2 r (0 : Fin 1))) k * w (ix2 k q)
  refine Finset.sum_congr rfl fun k _ => ?_
  rw [mulf_apply, normArr_apply, bcast_col_apply]
  rfl

/-- The last stage at `(r, q)`: scale by the row's factor, add the bias entry, clamp below at zero, add the input entry. -/
theorem lastStage_apply (g x : FVec Ideal S100000x128 .f32) (t : FVec Ideal S100000x1 .f32) (b : FVec Ideal S128 .f32)
    (r : Fin 100000) (q : Fin 128) :
    addf
      (maximumf
        (addf
          (mulf g (broadcastInDim S100000x128 ![0, 1] bcast_S100000x1_S100000x128_0_1 t))
          (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32)))
      x (ix2 r q)
      = Cert.GraphConvSpec.combined (g (ix2 r q)) (t (ix2 r (0 : Fin 1))) (b (ix1 q)) (x (ix2 r q)) := by
  rw [addf_apply, maximumf_apply, addf_apply, mulf_apply, bcast_col_apply, bcast_row_apply, bcast_vec_row_apply,
    broadcastInDim_scalar_apply]
  rfl

/-- The reference's result is the specification's last stage of the aggregate of its projected features. -/
theorem out_eq (x : FVec Ideal S100000x128 .f32) (src dst : IVec S1600000 32) (w : FVec Ideal S128x128 .f32)
    (b a2 b2 : FVec Ideal S128 .f32) :
    RefTerm.out (F := Ideal) x src dst w b a2 b2
      = Cert.GraphConvSpec.outArr
          (RefTerm.aggregate (F := Ideal) (Cert.GraphConvSpec.projArr x (RefTerm.degNorm (F := Ideal) src) a2 b2 w) src dst)
          (RefTerm.degNorm (F := Ideal) dst) b x := by
  unfold RefTerm.out
  rw [projArr_eq]
  funext i
  obtain ⟨r, q, rfl⟩ : ∃ (r : Fin 100000) (q : Fin 128), i = ix2 r q := ⟨i 0, i 1, eq_ix2 i⟩
  rw [lastStage_apply]
  rfl

end Cert.ReferenceIdeal.RefValue

end
-- ==== Proof.lean ====
/-
  A graph-convolution layer against its reference, over the extended reals.

  Both programs normalise each node's 128 features (a layer norm with the unbiased variance and ε added to the
  standard deviation), scale the row by the node's out-degree factor 1/√max(deg, 1), multiply by the weight matrix,
  gather the projected rows along the edges and sum them into their destination rows, scale by the in-degree factor, add
  the bias, clamp below at zero and add the input. The kernel program does the normalisation and the product in one
  tiled region (2000 rows a block, the product after casts that are the identity on the extended reals, into a zero
  accumulator) and the last stage in a second one; the reference does everything in whole-array operations.

  The two results meet at one function of the arguments (Proof/Spec.lean): entry (i, j) of the projected features is
  Σ_k n_{ik} · w_{kj} with n the normalised, scaled row, on both sides the same operations in the same order, the two
  sums over k ranging over the same 128 products; the gather and the accumulating scatter are the same operations
  applied to equal arrays, and the last stage is pointwise. No law of the extended reals beyond re-indexing a finite sum
  is used, so the finiteness of the inputs is never opened.

  The kernel's side: each region's output array from the arrays it finds (Proof/KVal0.lean, Proof/KVal1.lean), the host
  operations between them read back to the arguments (Proof/KHost.lean), over the run with the result named
  (Proof/KRun.lean). The reference's side: its run as a straight line of host operations (Proof/RefRun.lean) ending at
  the composed term (Proof/RefTerm.lean), and that term read entry by entry (Proof/RefValue.lean).
-/
import proofs.«100118_j65429531787486_1_alg».proof.Defs
import proofs.«100118_j65429531787486_1_alg».proof.Proof.Gen.Kernel
import proofs.«100118_j65429531787486_1_alg».proof.Proof.Gen.Kernel.Frame
import proofs.«100118_j65429531787486_1_alg».proof.Proof.Gen.KernelIdeal
import proofs.«100118_j65429531787486_1_alg».proof.Proof.Gen.KernelIdeal.Frame
import proofs.«100118_j65429531787486_1_alg».proof.Proof.Gen.ReferenceIdeal
import proofs.«100118_j65429531787486_1_alg».proof.Proof.Gen.Pre_finite_inputs
import proofs.«100118_j65429531787486_1_alg».proof.Proof.Spec
import proofs.«100118_j65429531787486_1_alg».proof.Proof.KTerm
import proofs.«100118_j65429531787486_1_alg».proof.Proof.RefTerm
import proofs.«100118_j65429531787486_1_alg».proof.Proof.KRun
import proofs.«100118_j65429531787486_1_alg».proof.Proof.KHost
import proofs.«100118_j65429531787486_1_alg».proof.Proof.RefRun
import proofs.«100118_j65429531787486_1_alg».proof.Proof.RefValue
import Idealize.ShloMosaic.Adequacy
import Idealize.ShloMosaic.Init

noncomputable section

namespace Cert.Proof

open Idealize.ShloMosaic Idealize.ShloMosaic.TcCoe Idealize.SL.Sem

/-! ## The shared operations are the same functions in both programs -/

/-- A node's degree factor is one function of the edge ends, whichever program states it. -/
theorem degNorm_eq (idx : IVec ⟨1, ![1600000]⟩ 32) :
    Cert.ReferenceIdeal.RefTerm.degNorm (F := Ideal) idx = Cert.KernelIdeal.KTerm.degNorm (F := Ideal) idx := rfl

/-- The aggregate along the edges is one function of the rows and the edge ends, whichever program states it. -/
theorem aggregate_eq (p : FVec Ideal ⟨2, ![100000, 128]⟩ .f32) (src dst : IVec ⟨1, ![1600000]⟩ 32) :
    Cert.ReferenceIdeal.RefTerm.aggregate (F := Ideal) p src dst = Cert.KernelIdeal.KTerm.aggregate (F := Ideal) p src dst := rfl

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The kernel's result array ends at the specification's function of its arguments (the two regions' arrays composed
    through the host operations), the reference's at its composed term, which is the same function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun _ h c => ⟨(h c).1.trans (Cert.KernelIdeal.KHost.kernel_value m ρ c), (h c).2⟩)
    (Cert.KernelIdeal.KRun.run_named (F := Ideal) m ρ), ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.out_eq, (hagree c).1, (hagree c).2.1, (hagree c).2.2.1, (hagree c).2.2.2.1, (hagree c).2.2.2.2.1, (hagree c).2.2.2.2.2.1, (hagree c).2.2.2.2.2.2, degNorm_eq, degNorm_eq, aggregate_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
